-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512 : Shape := ⟨1, ![512]⟩
abbrev S1x2048x128 : Shape := ⟨3, ![1, 2048, 128]⟩
abbrev S1000x128 : Shape := ⟨2, ![1000, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S1x2048x128 : S_.BroadcastsInDim S1x2048x128 (![] : Fin 0 → Fin S1x2048x128.rank)
  reducesTo_S1x2048x128_S_d0_1_2 : S1x2048x128.ReducesTo [0, 1, 2] S_
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S512x128 .f32) (main_arg1 : IVec S512 32) (main_arg2 : FVec F S1x2048x128 .f32) (main_arg3 : FVec F S1000x128 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S1x2048x128 .f32 := Host.absf main_arg2
  let main_cst_0 : FVec F S_ .f32 := constant S_ .f32 0x7F800000#32
  let main_v5 : FVec F S1x2048x128 .f32 := broadcastInDim S1x2048x128 ![] bcast_S_S1x2048x128 main_cst_0
  let main_v6 : IVec S1x2048x128 1 := cmpf .olt main_v4 main_v5
  let main_c_1 : IVec S_ 1 := constantI S_ 1 1#1
  let main_v7 : IVec S_ 1 := (fun x v => Host.reduce IntOp.andi x v reducesTo_S1x2048x128_S_d0_1_2 h_S_) main_v6 main_c_1
  let main_v8 : IVec S_ 1 := andi main_v3 main_v7
  let main_v9 : FVec F S1000x128 .f32 := Host.absf main_arg3
  let main_cst_2 : FVec F S_ .f32 := constant S_ .f32 0x7F800000#32
  let main_v10 : FVec F S1000x128 .f32 := broadcastInDim S1000x128 ![] bcast_S_S1000x128 main_cst_2
  let main_v11 : IVec S1000x128 1 := cmpf .olt main_v9 main_v10
  let main_c_3 : IVec S_ 1 := constantI S_ 1 1#1
  let main_v12 : IVec S_ 1 := (fun x v => Host.reduce IntOp.andi x v reducesTo_S1000x128_S_d0_1 h_S_) main_v11 main_c_3
  let main_v13 : IVec S_ 1 := andi main_v8 main_v12
  main_v13
-- ==== Kernel.lean ====
abbrev S512x128 : Shape := ⟨2, ![512, 128]⟩
abbrev S512 : Shape := ⟨1, ![512]⟩
abbrev S1x2048x128 : Shape := ⟨3, ![1, 2048, 128]⟩
abbrev S1000x128 : Shape := ⟨2, ![1000, 128]⟩
abbrev S_ : Shape := ⟨0, ![]⟩
abbrev S512x1 : Shape := ⟨2, ![512, 1]⟩
abbrev S2048x128 : Shape := ⟨2, ![2048, 128]⟩
abbrev S512x2048 : Shape := ⟨2, ![512, 2048]⟩
abbrev S8x128 : Shape := ⟨2, ![8, 128]⟩
abbrev S8x2048 : Shape := ⟨2, ![8, 2048]⟩
abbrev S8x1x128 : Shape := ⟨3, ![8, 1, 128]⟩
abbrev S8x2048x128 : Shape := ⟨3, ![8, 2048, 128]⟩

abbrev nBuf : Space → Nat
  | .hbm => 16
  | .vmem => 5
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S1x2048x128, .f32⟩
  | .hbm, ⟨3, _⟩ => ⟨S1000x128, .f32⟩
  | .hbm, ⟨4, _⟩ => ⟨S_, .i32⟩
  | .hbm, ⟨5, _⟩ => ⟨S512, .i32⟩
  | .hbm, ⟨6, _⟩ => ⟨S512, .i1⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S512x128, .f32⟩
  | .hbm, ⟨13, _⟩ => ⟨S512x128, .f32⟩
  | .hbm, ⟨14, _⟩ => ⟨S2048x128, .f32⟩
  | .hbm, ⟨15, _⟩ => ⟨S512x2048, .f32⟩
  | .local _ .vmem, ⟨0, _⟩ => ⟨S8x128, .f32⟩
  | .local _ .vmem, ⟨1, _⟩ => ⟨S8x128, .f32⟩
  | .local _ .vmem, ⟨2, _⟩ => ⟨S2048x128, .f32⟩
  | .local _ .vmem, ⟨3, _⟩ => ⟨S8x2048, .f32⟩
  | .local _ .vmem, ⟨4, _⟩ => ⟨S8x2048, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  shapeCasts_S1x2048x128_S2048x128 : S1x2048x128.ShapeCasts S2048x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S8x128_S8x1x128 : S8x128.ShapeCasts S8x1x128
  shapeCasts_S2048x128_S1x2048x128 : S2048x128.ShapeCasts S1x2048x128
  broadcasts_S8x1x128_S8x2048x128 : S8x1x128.Broadcasts S8x2048x128
  broadcasts_S1x2048x128_S8x2048x128 : S1x2048x128.Broadcasts S8x2048x128
  reduces_S8x2048x128_S8x2048 : S8x2048x128.Reduces [2] S8x2048
  inb_S8x2048_S8x2048_0_0 : ∀ a, (![0, 0] : Fin 2 → Nat) a + S8x2048.size a ≤ S8x2048.size a
  h_S8x2048 : 0 < S8x2048.numel
  gather_S1000x128_S512x1_S512x128_1_0_n_n_0_1_1128_wf : GatherDims.WF S1000x128 S512x1 S512x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S512x128.size a
  hwx0_0 : ∀ i : grid0.Coords, EltTy.bits .f32 = 32 ∨ (Rect.block (s := S512x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S512x2048.size a
  hwx0_2 : ∀ i : grid0.Coords, EltTy.bits .f32 = 32 ∨ (Rect.block (s := S512x2048) S8x2048.size (cc0_transform_2 i) (hinb0_2 i)).WholeWords (EltTy.packing .f32)

variable [Facts₀]

def gather_S1000x128_S512x1_S512x128_1_0_n_n_0_1_1128 : GatherDims S1000x128 S512x1 S512x128 where
  offsetDims := [1]
  collapsedSliceDims := [0]
  operandBatchingDims := []
  startIndicesBatchingDims := []
  startIndexMap := [0]
  indexVectorDim := 1
  sliceSizes := ![1, 128]
  wf := gather_S1000x128_S512x1_S512x128_1_0_n_n_0_1_1128_wf

abbrev win0_0 : Pipeline.Window sig grid0 :=
  Pipeline.Window.ofSpec (Memref.whole main_v7) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x128 : Shape := ⟨2, ![512, 128]⟩
abbrev S512 : Shape := ⟨1, ![512]⟩
abbrev S1x2048x128 : Shape := ⟨3, ![1, 2048, 128]⟩
abbrev S1000x128 : Shape := ⟨2, ![1000, 128]⟩
abbrev S_ : Shape := ⟨0, ![]⟩
abbrev S512x1 : Shape := ⟨2, ![512, 1]⟩
abbrev S2048x128 : Shape := ⟨2, ![2048, 128]⟩
abbrev S512x1x128 : Shape := ⟨3, ![512, 1, 128]⟩
abbrev S512x2048x128 : Shape := ⟨3, ![512, 2048, 128]⟩
abbrev S512x2048 : Shape := ⟨2, ![512, 2048]⟩

abbrev nBuf : Space → Nat
  | .hbm => 24
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S1x2048x128, .f32⟩
  | .hbm, ⟨3, _⟩ => ⟨S1000x128, .f32⟩
  | .hbm, ⟨4, _⟩ => ⟨S_, .i32⟩
  | .hbm, ⟨5, _⟩ => ⟨S512, .i32⟩
  | .hbm, ⟨6, _⟩ => ⟨S512, .i1⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S512x128, .f32⟩
  | .hbm, ⟨13, _⟩ => ⟨S512x128, .f32⟩
  | .hbm, ⟨14, _⟩ => ⟨S2048x128, .f32⟩
  | .hbm, ⟨15, _⟩ => ⟨S512x1x128, .f32⟩
  | .hbm, ⟨16, _⟩ => ⟨S1x2048x128, .f32⟩
  | .hbm, ⟨17, _⟩ => ⟨S512x2048x128, .f32⟩
  | .hbm, ⟨18, _⟩ => ⟨S512x2048x128, .f32⟩
  | .hbm, ⟨19, _⟩ => ⟨S512x2048x128, .f32⟩
  | .hbm, ⟨20, _⟩ => ⟨S512x2048x128, .f32⟩
  | .hbm, ⟨21, _⟩ => ⟨S_, .f32⟩
  | .hbm, ⟨22, _⟩ => ⟨S512x2048, .f32⟩
  | .hbm, ⟨23, _⟩ => ⟨S512x2048, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  shapeCasts_S1x2048x128_S2048x128 : S1x2048x128.ShapeCasts S2048x128
  bcast_S512x128_S512x1x128_0_2 : S512x128.BroadcastsInDim S512x1x128 (![0, 2] : Fin 2 → Fin S512x1x128.rank)
  bcast_S2048x128_S1x2048x128_1_2 : S2048x128.BroadcastsInDim S1x2048x128 (![1, 2] : Fin 2 → Fin S1x2048x128.rank)
  bcast_S512x1x128_S512x2048x128_0_1_2 : S512x1x128.BroadcastsInDim S512x2048x128 (![0, 1, 2] : Fin 3 → Fin S512x2048x128.rank)
  bcast_S1x2048x128_S512x2048x128_0_1_2 : S1x2048x128.BroadcastsInDim S512x2048x128 (![0, 1, 2] : Fin 3 → Fin S512x2048x128.rank)
  reducesTo_S512x2048x128_S512x2048_d2 : S512x2048x128.ReducesTo [2] S512x2048
  h_S_ : 0 < S_.numel
  gather_S1000x128_S512x1_S512x128_1_0_n_n_0_1_1128_wf : GatherDims.WF S1000x128 S512x1 S512x128 [1] [0] [] [0] [] 1 ![1, 128]

variable [Facts₀]

def gather_S1000x128_S512x1_S512x128_1_0_n_n_0_1_1128 : GatherDims S1000x128 S512x1 S512x128 where
  offsetDims := [1]
  collapsedSliceDims := [0]
  operandBatchingDims := []
  startIndicesBatchingDims := []
  startIndexMap := [0]
  indexVectorDim := 1
  sliceSizes := ![1, 128]
  wf := gather_S1000x128_S512x1_S512x128_1_0_n_n_0_1_1128_wf

class Facts : Prop extends Facts₀ where

variable [Facts]
-- ==== Proof.Score.lean ====
/-
  The score both programs compute, as one function of two matrices over the extended reals:
  for a query matrix `q : [512, 128]` and a key matrix `k : [2048, 128]`,

      negL1 q k (b, n) = −∑_{d < 128} |q[b, d] − k[n, d]|,

  the negated L1 distance between row `b` of `q` and row `n` of `k`, where the absolute value of an extended
  real `z` is `max z (−z)`. No program is mentioned here; the two sides are each shown to end at this function.
-/
import Idealize.ShloMosaic.PureOps.Ideal
import Idealize.ShloMosaic.Lib.ValueIdx

noncomputable section

open scoped BigOperators

namespace Cert.Score

open Idealize.ShloMosaic Idealize.ShloMosaic.ValueIdx

/-- One term of the distance: `|q[b, d] − k[n, d]|` on the extended reals. -/
def absDiff (q : (⟨2, ![512, 128]⟩ : Shape).Idx → EReal) (k : (⟨2, ![2048, 128]⟩ : Shape).Idx → EReal)
    (b : Fin 512) (n : Fin 2048) (d : Fin 128) : EReal :=
  max (q (ix2 b d) - k (ix2 n d)) (-(q (ix2 b d) - k (ix2 n d)))

/-- The negated L1 distance between row `b` of `q` and row `n` of `k`, at the index `(b, n)`. -/
def negL1 (q : (⟨2, ![512, 128]⟩ : Shape).Idx → EReal) (k : (⟨2, ![2048, 128]⟩ : Shape).Idx → EReal) :
    (⟨2, ![512, 2048]⟩ : Shape).Idx → EReal :=
  fun i => -(∑ d : Fin 128, absDiff q k (i 0) (i 1) d)

theorem negL1_apply (q : (⟨2, ![512, 128]⟩ : Shape).Idx → EReal) (k : (⟨2, ![2048, 128]⟩ : Shape).Idx → EReal)
    (b : Fin 512) (n : Fin 2048) : negL1 q k (ix2 b n) = -(∑ d : Fin 128, absDiff q k b n d) := rfl

/-- Subtracting from zero is negation on the extended reals, infinities included: `0 − s = 0 + (−s) = −s`. -/
theorem zero_sub_ereal (s : EReal) : (0 : EReal) - s = -s := by
  rw [sub_eq_add_neg, zero_add]

/-- Adding to zero changes nothing. -/
theorem zero_add_ereal (s : EReal) : (0 : EReal) + s = s := zero_add s

end Cert.Score

end
-- ==== Proof.KernelBlock.lean ====
/-
  What one grid point leaves in the output block, read at one element, at the extended reals.
  The body takes the [8, 128] query block `P0` and the whole [2048, 128] key matrix `P1`, re-lays both to
  [8, 2048, 128] (row `r` of `P0` repeated along the middle axis, row `n` of `P1` along the leading one), subtracts,
  takes absolute values, sums the last axis from zero, and subtracts the sum from zero. At the element `(r, n)` that is

      0 − ∑_{d < 128} |P0[r, d] − P1[n, d]|  =  −∑_d |P0[r, d] − P1[n, d]|.
-/
import proofs.«140157_j19370302505582_1_alg».proof.Proof.Gen.KernelIdeal.Value
import proofs.«140157_j19370302505582_1_alg».proof.Proof.Score
import Idealize.ShloMosaic.PureOps.Ideal.Laws
import Idealize.ShloMosaic.Lib.ValueIdx
import Idealize.ShloMosaic.Lib.Pipeline.Value

noncomputable section

open scoped BigOperators

namespace Cert.KernelIdeal.Block

open Cert.KernelIdeal Cert.KernelIdeal.Gen Idealize.ShloMosaic Idealize.ShloMosaic.ValueIdx
/-- The query block re-laid to [8, 2048, 128] reads row `r`, column `d` at `(r, n, d)`, whatever `n`. -/
theorem query_relaid (P0 : Vec Ideal S8x128 .f32) (r : Fin 8) (n : Fin 2048) (d : Fin 128) :
    broadcastTo S8x2048x128 (shapeCast S8x1x128 (shapeCast S8x128 P0 shapeCasts_S8x128_S8x128) shapeCasts_S8x128_S8x1x128)
      broadcasts_S8x1x128_S8x2048x128 (ix3 r n d) = P0 (ix2 r d) := by
  refine (broadcastTo_apply _ broadcasts_S8x1x128_S8x2048x128 (ix3 r n d) (ix3 r (⟨0, Nat.one_pos⟩ : Fin 1) d) (fun a => ?_)).trans ?_
  · match a with
    | ⟨0, _⟩ => show r.val = if (8 : Nat) = 1 then 0 else r.val; rw [if_neg (by decide)]
    | ⟨1, _⟩ => show 0 = if (1 : Nat) = 1 then 0 else n.val; rw [if_pos rfl]
    | ⟨2, _⟩ => show d.val = if (128 : Nat) = 1 then 0 else d.val; rw [if_neg (by decide)]
  refine (shapeCast_apply _ shapeCasts_S8x128_S8x1x128 (ix3 r (⟨0, Nat.one_pos⟩ : Fin 1) d) (ix2 r d) ?_).trans ?_
  · rw [Shape.rowMajor_val_two, Shape.rowMajor_val_three]
    show r.val * 128 + d.val = (r.val * 1 + 0) * 128 + d.val
    omega
  rw [shapeCast_self]

/-- The key matrix re-laid to [8, 2048, 128] reads row `n`, column `d` at `(r, n, d)`, whatever `r`. -/
theorem key_relaid (P1 : Vec Ideal S2048x128 .f32) (r : Fin 8) (n : Fin 2048) (d : Fin 128) :
    broadcastTo S8x2048x128 (shapeCast S1x2048x128 (shapeCast S2048x128 P1 shapeCasts_S2048x128_S2048x128) shapeCasts_S2048x128_S1x2048x128)
      broadcasts_S1x2048x128_S8x2048x128 (ix3 r n d) = P1 (ix2 n d) := by
  refine (broadcastTo_apply _ broadcasts_S1x2048x128_S8x2048x128 (ix3 r n d) (ix3 (⟨0, Nat.one_pos⟩ : Fin 1) n d) (fun a => ?_)).trans ?_
  · match a with
    | ⟨0, _⟩ => show 0 = if (1 : Nat) = 1 then 0 else r.val; rw [if_pos rfl]
    | ⟨1, _⟩ => show n.val = if (2048 : Nat) = 1 then 0 else n.val; rw [if_neg (by decide)]
    | ⟨2, _⟩ => show d.val = if (128 : Nat) = 1 then 0 else d.val; rw [if_neg (by decide)]
  refine (shapeCast_apply _ shapeCasts_S2048x128_S1x2048x128 (ix3 (⟨0, Nat.one_pos⟩ : Fin 1) n d) (ix2 n d) ?_).trans ?_
  · rw [Shape.rowMajor_val_two, Shape.rowMajor_val_three]
    show n.val * 128 + d.val = (0 * 2048 + n.val) * 128 + d.val
    omega
  rw [shapeCast_self]

/-- The lane sum of the body, at `(r, n)`: the sum over `d` of `|P0[r, d] − P1[n, d]|`. The accumulator the reduction
    starts from is the zero word, the neutral element of the sum. -/
theorem lane_sum (P0 : Vec Ideal S8x128 .f32) (P1 : Vec Ideal S2048x128 .f32) (r : Fin 8) (n : Fin 2048)
    (hφ : FKind.Formats .f32) (hacc : (0x00000000#32 : BitVec 32) = FKind.add.neutral .f32 hφ) :
    multiReduction (F := Ideal) .add [2] S8x2048
      (absf (subf
        (broadcastTo S8x2048x128 (shapeCast S8x1x128 (shapeCast S8x128 P0 shapeCasts_S8x128_S8x128) shapeCasts_S8x128_S8x1x128) broadcasts_S8x1x128_S8x2048x128)
        (broadcastTo S8x2048x128 (shapeCast S1x2048x128 (shapeCast S2048x128 P1 shapeCasts_S2048x128_S2048x128) shapeCasts_S2048x128_S1x2048x128) broadcasts_S1x2048x128_S8x2048x128)))
      0x00000000#32 reduces_S8x2048x128_S8x2048 hφ hacc (ix2 r n)
    = ∑ d : Fin 128, max (P0 (ix2 r d) - P1 (ix2 n d)) (-(P0 (ix2 r d) - P1 (ix2 n d))) := by
  refine (Ideal.multiReduction_add_single _ 0x00000000#32 reduces_S8x2048x128_S8x2048 hφ hacc (ix2 r n)).trans ?_
  show ∑ d : Fin 128, _ = _
  refine Finset.sum_congr rfl fun (d : Fin 128) _ => ?_
  have hl : reduces_S8x2048x128_S8x2048.lift (ix2 r n) d = ix3 r n d :=
    funext fun a => Fin.ext (by match a with | ⟨0, _⟩ => rfl | ⟨1, _⟩ => rfl | ⟨2, _⟩ => rfl)
  rw [hl]
  show max (_ - _) (-(_ - _)) = _
  rw [query_relaid P0 r n d, key_relaid P1 r n d]

/-- THE BLOCK AT ONE ELEMENT: what a grid point's body leaves at `(r, n)` of its [8, 2048] output block is
    `−∑_d |P0[r, d] − P1[n, d]|`: the lane sum, subtracted from zero. -/
theorem block_score (P0 : Vec Ideal S8x128 .f32) (P1 : Vec Ideal S2048x128 .f32) (r : Fin 8) (n : Fin 2048) :
    Value.E2 (F := Ideal) P0 P1 (ix2 r n)
      = -(∑ d : Fin 128, max (P0 (ix2 r d) - P1 (ix2 n d)) (-(P0 (ix2 r d) - P1 (ix2 n d)))) := by
  have hi : Value.ix2_0 (ix2 r n) = ix2 r n :=
    funext fun a => Fin.ext (by match a with | ⟨0, _⟩ => rfl | ⟨1, _⟩ => rfl)
  show FloatOps.subf (F := Ideal) (Scalar.ofBits .f32 0x00000000#32)
    (multiReduction (F := Ideal) .add [2] S8x2048 _ 0x00000000#32 reduces_S8x2048x128_S8x2048 (.inl rfl) rfl (Value.ix2_0 (ix2 r n))) = _
  rw [hi, lane_sum P0 P1 r n (.inl rfl) rfl]
  show Ideal.ofBits .f32 0x00000000#32 - _ = _
  rw [Ideal.ofBits_zero_f32, Cert.Score.zero_sub_ereal]

end Cert.KernelIdeal.Block

end
-- ==== Proof.KernelArray.lean ====
/-
  From the blocks to the whole result array of the kernel, at the extended reals.
  The region finds a query matrix `Q : [512, 128]` (the head embeddings plus the gathered relation rows) and a key matrix
  `K : [2048, 128]` (the tail embeddings, flattened). Grid point `t` of 64 is handed rows `8t … 8t + 7` of `Q` and all of
  `K`, and writes rows `8t … 8t + 7` of the [512, 2048] result. By the block lemma, what it writes at `(r, n)` is
  `−∑_d |Q[8t + r, d] − K[n, d]|`, which is the score `negL1 Q K` at `(8t + r, n)`: every point writes its block of ONE
  function. Row `b` lies in point `b / 8`'s block, so the blocks cover the array, and the array ends holding `negL1 Q K`.
-/
import proofs.«140157_j19370302505582_1_alg».proof.Proof.Gen.KernelIdeal.Value
import proofs.«140157_j19370302505582_1_alg».proof.Proof.Score
import proofs.«140157_j19370302505582_1_alg».proof.Proof.KernelBlock
import Idealize.ShloMosaic.Lib.Pipeline.Value
import Idealize.ShloMosaic.Lib.ValueIdx

noncomputable section

open scoped BigOperators

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The query matrix as the region finds it. -/
abbrev queries (c : Dev nD) : S512x128.Idx → EReal := V m c main_v7
/-- The key matrix as the region finds it. -/
abbrev keys (c : Dev nD) : S2048x128.Idx → EReal := V m c main_v8

theorem zero_offsets : (![0, 0] : Fin 2 → Nat) = fun _ => 0 := funext fun a => by fin_cases a <;> rfl

/-- The three index maps over the grid: the query window and the result window are at block row `t`, block column 0; the
    key window stays at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s query block is rows `8t … 8t + 7` of the query matrix. -/
theorem query_block (c : Dev nD) (t : Fin cfg0.N) (r : Fin 8) (d : Fin 128) (h : t.val * 8 + r.val < 512) :
    (iblk m c 0 t : Vec Ideal S8x128 .f32) (ix2 r d) = queries m c (ix2 (⟨t.val * 8 + r.val, h⟩ : Fin 512) d) := by
  obtain ⟨e0, e1, -, -, -, -⟩ := block_indices t
  unfold iblk
  rw [View.read_apply]
  show V m c main_v7 _ = V m c main_v7 _
  congr 1
  funext a
  apply Fin.ext
  match a with
  | ⟨0, _⟩ => show win0_0.index t (0 : Fin 2) * 8 + 1 * r.val = t.val * 8 + r.val; rw [e0]; omega
  | ⟨1, _⟩ => show win0_0.index t (1 : Fin 2) * 128 + 1 * d.val = d.val; rw [e1]; omega

/-- Every point's key block is the whole key matrix. -/
theorem key_block (c : Dev nD) (t : Fin cfg0.N) (n : Fin 2048) (d : Fin 128) :
    (iblk m c 1 t : Vec Ideal S2048x128 .f32) (ix2 n d) = keys m c (ix2 n d) := by
  obtain ⟨-, -, e0, e1, -, -⟩ := block_indices t
  unfold iblk
  rw [View.read_apply]
  show V m c main_v8 _ = V m c main_v8 _
  congr 1
  funext a
  apply Fin.ext
  match a with
  | ⟨0, _⟩ => show win0_1.index t (0 : Fin 2) * 2048 + 1 * n.val = n.val; rw [e0]; omega
  | ⟨1, _⟩ => show win0_1.index t (1 : Fin 2) * 128 + 1 * d.val = d.val; rw [e1]; omega

/-- WHAT POINT `t` WRITES BACK is block `t` of the score of the query and key matrices. -/
theorem flushed_score (c : Dev nD) (t : Fin cfg0.N) :
    (dats m 0 c).flushed 2 t
      = ((cfg0.win 2).blk t).view.read (Elt Ideal) (Cert.Score.negL1 (queries m c) (keys m c)) := by
  rw [Value.flushed2]
  unfold out0_2
  simp only [View.ld_unit_zero (S := S8x128) zero_offsets, View.ld_unit_zero (S := S2048x128) zero_offsets]
  obtain ⟨-, -, -, -, e0, e1⟩ := block_indices t
  have ht : t.val < 64 := by have h := t.isLt; have hN : grid0.N = 64 := N_0; exact hN ▸ h
  funext j
  obtain ⟨r, n, rfl⟩ : ∃ (r : Fin 8) (n : Fin 2048), j = ix2 r n := ⟨j 0, j 1, eq_ix2 j⟩
  have hrow : t.val * 8 + r.val < 512 := by have := r.isLt; omega
  have hemb : ((cfg0.win 2).blk t).view.emb (ix2 r n) = ix2 (⟨t.val * 8 + r.val, hrow⟩ : Fin 512) n := by
    funext a; apply Fin.ext
    match a with
    | ⟨0, _⟩ => show win0_2.index t (0 : Fin 2) * 8 + 1 * r.val = t.val * 8 + r.val; rw [e0]; omega
    | ⟨1, _⟩ => show win0_2.index t (1 : Fin 2) * 2048 + 1 * n.val = n.val; rw [e1]; omega
  show View.canon (Val := Elt Ideal) [(⟨r0_2, k0_pay1 (iblk m c 0 t) (iblk m c 1 t)⟩ : View.Piece (Elt Ideal) S8x2048 .f32)] (ix2 r n)
    = Cert.Score.negL1 (queries m c) (keys m c) (((cfg0.win 2).blk t).view.emb (ix2 r n))
  rw [hemb, Cert.Score.negL1_apply]
  refine (Value.canon2_eq (F := Ideal) (iblk m c 0 t) (iblk m c 1 t) (ix2 r n)).trans ?_
  refine (Cert.KernelIdeal.Block.block_score (iblk m c 0 t) (iblk m c 1 t) r n).trans ?_
  refine congrArg Neg.neg (Finset.sum_congr rfl fun d _ => ?_)
  unfold Cert.Score.absDiff
  rw [query_block m c t r d hrow, key_block m c t n d]

/-- An index of the result array is in point `t`'s block iff each coordinate is in the block's range on its axis. -/
theorem mem_block (t : Fin cfg0.N) (i : S512x2048.Idx) :
    i ∈ ((cfg0.win 2).blk t).view.set ↔ ∀ a : Fin 2, win0_2.index t a * S8x2048.size a ≤ (i a).val
      ∧ (i a).val < win0_2.index t a * S8x2048.size a + S8x2048.size a := by
  show i ∈ ((View.whole main_v9).slice (win0_2.rect t)).set ↔ _
  rw [View.set_slice_whole, Rect.mem_set_unit]
  exact Iff.rfl

/-- Row `b` of the result lies in point `b / 8`'s block: the blocks cover the array. -/
theorem covered (i : S512x2048.Idx) :
    ∃ t : Fin cfg0.N, (cfg0.win 2).flush t = true ∧ i ∈ ((cfg0.win 2).blk t).view.set := by
  have h0 : (i 0).val < 512 := (i 0).isLt
  have h1 : (i 1).val < 2048 := (i 1).isLt
  have hN : grid0.N = 64 := N_0
  have hlt : (i 0).val / 8 < cfg0.N := by show _ < grid0.N; omega
  obtain ⟨-, -, -, -, e0, e1⟩ := block_indices ⟨(i 0).val / 8, hlt⟩
  refine ⟨⟨(i 0).val / 8, hlt⟩, flush0_2 _, ?_⟩
  rw [mem_block]
  intro a
  match a with
  | ⟨0, _⟩ =>
    show win0_2.index ⟨(i 0).val / 8, hlt⟩ (0 : Fin 2) * 8 ≤ (i 0).val
      ∧ (i 0).val < win0_2.index ⟨(i 0).val / 8, hlt⟩ (0 : Fin 2) * 8 + 8
    rw [e0]; show (i 0).val / 8 * 8 ≤ (i 0).val ∧ (i 0).val < (i 0).val / 8 * 8 + 8; omega
  | ⟨1, _⟩ =>
    show win0_2.index ⟨(i 0).val / 8, hlt⟩ (1 : Fin 2) * 2048 ≤ (i 1).val
      ∧ (i 1).val < win0_2.index ⟨(i 0).val / 8, hlt⟩ (1 : Fin 2) * 2048 + 2048
    rw [e1]; omega

/-- THE RESULT ARRAY after the run is the score of the query and key matrices the region found. -/
theorem final_score (c : Dev nD) :
    (dats m 0 c).arrAt 2 cfg0.N = Cert.Score.negL1 (queries m c) (keys m c) :=
  (dats m 0 c).arrAt_eq_of_cover 2 (Cert.Score.negL1 (queries m c) (keys m c))
    (fun t _ => flushed_score m c t) covered

/-- The kernel's run, read: the result array at the score, the arguments unchanged. -/
theorem run : θ_run defs (onTc (τ := τ) (main (F := Ideal))) ⟨m, fun _ => 0, ρ⟩ fun r => ∀ c : Dev nD,
      r.2.mem ((c : Thread nD τ).loc main_v9) = Cert.Score.negL1 (queries m c) (keys m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_score m c), (h c).2⟩)
    (Value.run_blocks m ρ)

end Cert.KernelIdeal.Array

end
-- ==== Proof.RefScore.lean ====
/-
  The reference computes the same score, at the extended reals. Its last operations broadcast the query matrix
  `Q = head + gathered relation rows` to [512, 1, 128] then [512, 2048, 128], the flattened tail embeddings `K` to
  [1, 2048, 128] then [512, 2048, 128], subtract, take absolute values, sum the last axis starting from zero, and
  negate. Read at `(b, n)`: `−(0 + ∑_d |Q[b, d] − K[n, d]|) = −∑_d |Q[b, d] − K[n, d]|`, the score `negL1 Q K`.
-/
import proofs.«140157_j19370302505582_1_alg».proof.Proof.Gen.ReferenceIdeal.Read
import proofs.«140157_j19370302505582_1_alg».proof.Proof.Score
import Idealize.ShloMosaic.PureOps.Ideal.Laws
import Idealize.ShloMosaic.Lib.ValueIdx

noncomputable section

open scoped BigOperators

namespace Cert.ReferenceIdeal.RefScore

open Cert.ReferenceIdeal Cert.ReferenceIdeal.Gen Cert.ReferenceIdeal.Read
open Idealize.ShloMosaic Idealize.ShloMosaic.ValueIdx

/-- The reference's result is the score of its own query matrix (`val_main_v7`: head embeddings plus gathered relation
    rows) and key matrix (`val_main_v8`: the tail embeddings flattened). -/
theorem result_is_score (x0 : (⟨S512x128, .f32⟩ : BufTy).Contents (Elt Ideal)) (x1 : (⟨S512, .i32⟩ : BufTy).Contents (Elt Ideal))
    (x2 : (⟨S1x2048x128, .f32⟩ : BufTy).Contents (Elt Ideal)) (x3 : (⟨S1000x128, .f32⟩ : BufTy).Contents (Elt Ideal)) :
    val_main_v16 (F := Ideal) x0 x1 x2 x3
      = Cert.Score.negL1 (val_main_v7 (F := Ideal) x0 x1 x3) (val_main_v8 (F := Ideal) x2) := by
  funext i
  obtain ⟨b, n, rfl⟩ : ∃ (b : Fin 512) (n : Fin 2048), i = ix2 b n := ⟨i 0, i 1, eq_ix2 i⟩
  rw [val_main_v16_apply, val_main_v15_apply, val_main_cst_apply, Cert.Score.negL1_apply]
  show -(Ideal.ofBits .f32 0x00000000#32 + _) = _
  rw [Ideal.ofBits_zero_f32, zero_add]
  refine congrArg Neg.neg (Finset.sum_congr rfl fun d _ => ?_)
  have hq : idx_main_v9 (idx_main_v11 (idx_main_v15 (ix2 b n) d)) = ix2 b d :=
    funext fun a => Fin.ext (by match a with | ⟨0, _⟩ => rfl | ⟨1, _⟩ => rfl)
  have hk : idx_main_v10 (idx_main_v12 (idx_main_v15 (ix2 b n) d)) = ix2 n d :=
    funext fun a => Fin.ext (by match a with | ⟨0, _⟩ => rfl | ⟨1, _⟩ => rfl)
  rw [val_main_v14_apply, val_main_v13_apply, val_main_v11_apply, val_main_v9_apply, val_main_v12_apply,
    val_main_v10_apply, hq, hk]
  rfl

end Cert.ReferenceIdeal.RefScore

end
-- ==== Proof.lean ====
/-
  The certificate's claim. Both programs compute, for query row `b` and key row `n`,

      out[b, n] = −∑_{d < 128} |Q[b, d] − K[n, d]|,    Q = head_emb + relation_embedding[relation_id],  K = tail_emb flattened,

  the same host operations producing `Q` and `K` on both sides. The kernel tiles the 512 query rows into 64 blocks
  of 8 and, per block, sums |·| over the lane axis from a zero accumulator and subtracts the sum from zero; the reference
  broadcasts both matrices to [512, 2048, 128], sums |·| over the last axis from zero and negates. On the extended reals
  `0 − s = −s` and `0 + s = s` hold for every `s`, infinities included, so the two results are one function
  (`Score.negL1`) of `Q` and `K`, and the inputs' finiteness is never used. The ideal pass rewrote nothing, so the
  kernel's idealization is its own text and `preserves` has nothing to state.
-/
import proofs.«140157_j19370302505582_1_alg».proof.Defs
import proofs.«140157_j19370302505582_1_alg».proof.Proof.Gen.Kernel
import proofs.«140157_j19370302505582_1_alg».proof.Proof.Gen.Kernel.Skeleton
import proofs.«140157_j19370302505582_1_alg».proof.Proof.Gen.Kernel.Launch
import proofs.«140157_j19370302505582_1_alg».proof.Proof.Gen.Kernel.Points
import proofs.«140157_j19370302505582_1_alg».proof.Proof.Gen.Kernel.Frame
import proofs.«140157_j19370302505582_1_alg».proof.Proof.Gen.KernelIdeal
import proofs.«140157_j19370302505582_1_alg».proof.Proof.Gen.KernelIdeal.Skeleton
import proofs.«140157_j19370302505582_1_alg».proof.Proof.Gen.KernelIdeal.Launch
import proofs.«140157_j19370302505582_1_alg».proof.Proof.Gen.KernelIdeal.Points
import proofs.«140157_j19370302505582_1_alg».proof.Proof.Gen.KernelIdeal.Frame
import proofs.«140157_j19370302505582_1_alg».proof.Proof.Gen.ReferenceIdeal
import proofs.«140157_j19370302505582_1_alg».proof.Proof.Gen.Pre_finite_inputs
import proofs.«140157_j19370302505582_1_alg».proof.Proof.Gen.KernelIdeal.Value
import proofs.«140157_j19370302505582_1_alg».proof.Proof.Gen.ReferenceIdeal.Run
import proofs.«140157_j19370302505582_1_alg».proof.Proof.Gen.ReferenceIdeal.Read
import proofs.«140157_j19370302505582_1_alg».proof.Proof.Score
import proofs.«140157_j19370302505582_1_alg».proof.Proof.KernelBlock
import proofs.«140157_j19370302505582_1_alg».proof.Proof.KernelArray
import proofs.«140157_j19370302505582_1_alg».proof.Proof.RefScore
import Idealize.ShloMosaic.Lib.StableHlo.Run
import Idealize.ShloMosaic.Adequacy
import Idealize.ShloMosaic.Init

noncomputable section

open Idealize.ShloMosaic Idealize.ShloMosaic.TcCoe Idealize.SL.Sem

/-! ## The matrices the kernel's region finds are the reference's -/

namespace Cert.Proof.Operands

open Cert.KernelIdeal Cert.KernelIdeal.Gen

variable (m : (ℓ : Loc nD τ sig) → Buf (Elt Ideal) ℓ)

/-- The query matrix the region finds — the host operations before it applied to the arguments — is the reference's
    query matrix of the same arguments: the two programs print the same operations (sign-normalised index, gather
    of the relation rows, addition onto the head embeddings). -/
theorem queries_eq (c : Dev nD) :
    Cert.KernelIdeal.Array.queries m c
      = Cert.ReferenceIdeal.Read.val_main_v7 (F := Ideal) (m ((c : Thread nD τ).loc main_arg0))
          (m ((c : Thread nD τ).loc main_arg1)) (m ((c : Thread nD τ).loc main_arg3)) := by
  dsimp only [Cert.KernelIdeal.Array.queries, Gen.V, Gen.hostOps0]
  after_results
  rfl

/-- The key matrix the region finds is the reference's: the tail embeddings reshaped from [1, 2048, 128] to [2048, 128]. -/
theorem keys_eq (c : Dev nD) :
    Cert.KernelIdeal.Array.keys m c
      = Cert.ReferenceIdeal.Read.val_main_v8 (F := Ideal) (m ((c : Thread nD τ).loc main_arg2)) := by
  dsimp only [Cert.KernelIdeal.Array.keys, Gen.V, Gen.hostOps0]
  after_results
  rfl

end Cert.Proof.Operands

/-! ## The claims -/

namespace Cert.Proof

open Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the score of the query and key matrices computed from the arguments, which
    agree. -/
theorem algebraic : Cert.algebraic_KernelIdeal_ReferenceIdeal := by
  intro m ρ m' ρ' _ hagree
  refine ⟨fun c => Cert.Score.negL1 (Cert.KernelIdeal.Array.queries m c) (Cert.KernelIdeal.Array.keys m c),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefScore.result_is_score,
    (hagree c).1, (hagree c).2.1, (hagree c).2.2.1, (hagree c).2.2.2]
  show _ = Cert.Score.negL1 (Cert.KernelIdeal.Array.queries m c) (Cert.KernelIdeal.Array.keys m c)
  rw [Cert.Proof.Operands.queries_eq m c, Cert.Proof.Operands.keys_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
